-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S0 : Shape := ⟨1, ![0]⟩
abbrev S8192x2048 : Shape := ⟨2, ![8192, 2048]⟩
abbrev S1024x2048 : Shape := ⟨2, ![1024, 2048]⟩
abbrev S_ : Shape := ⟨0, ![]⟩
abbrev S2048x1024 : Shape := ⟨2, ![2048, 1024]⟩
abbrev S1x1024 : Shape := ⟨2, ![1, 1024]⟩
abbrev S1 : Shape := ⟨1, ![1]⟩
abbrev S256x2048 : Shape := ⟨2, ![256, 2048]⟩
abbrev S256x1024 : Shape := ⟨2, ![256, 1024]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S0, .i32⟩
  | .hbm, ⟨6, _⟩ => ⟨S0, .i32⟩
  | .hbm, ⟨7, _⟩ => ⟨S8192x2048, .f32⟩
  | .hbm, ⟨8, _⟩ => ⟨S1024x2048, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S1x1024, .f32⟩
  | .hbm, ⟨15, _⟩ => ⟨S_, .i32⟩
  | .hbm, ⟨16, _⟩ => ⟨S1, .i32⟩
  | .hbm, ⟨17, _⟩ => ⟨S1x1024, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  hz_S0 : S0.numel = 0
  concatenates_S8192x1024_S8192x1024_S8192x2048_d1 : Shape.Concatenates [S8192x1024, S8192x1024] S8192x2048 1
  concatenates_S1024x1024_S1024x1024_S1024x2048_d1 : Shape.Concatenates [S1024x1024, S1024x1024] S1024x2048 1
  bcast_S_S2048x1024 : S_.BroadcastsInDim S2048x1024 (![] : Fin 0 → Fin S2048x1024.rank)
  transposes_S1024x2048_S2048x1024_1_0 : S1024x2048.Transposes [1, 0] S2048x1024
  bcast_S_S1x1024 : S_.BroadcastsInDim S1x1024 (![] : Fin 0 → Fin S1x1024.rank)
  bcast_S_S1 : S_.BroadcastsInDim S1 (![] : Fin 0 → Fin S1.rank)
  bcast_S_S8192x2048 : S_.BroadcastsInDim S8192x2048 (![] : Fin 0 → Fin S8192x2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  scatter_S2048x1024_S0_S2048x1024_01_n_n_0_wf : ScatterDims.WF S2048x1024 S0 S2048x1024 [0, 1] [] [] 0
  scatter_S1x1024_S1_S1024_0_0_0_0_wf : ScatterDims.WF S1x1024 S1 S1024 [0] [0] [0] 0
  scatter_S8192x2048_S0_S8192x2048_01_n_n_0_wf : ScatterDims.WF S8192x2048 S0 S8192x2048 [0, 1] [] [] 0
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)

variable [Facts₀]

def scatter_S2048x1024_S0_S2048x1024_01_n_n_0 : ScatterDims S2048x1024 S0 S2048x1024 where
  updateWindowDims := [0, 1]
  insertedWindowDims := []
  scatterDimsToOperandDims := []
  indexVectorDim := 0
  wf := scatter_S2048x1024_S0_S2048x1024_01_n_n_0_wf
def scatter_S1x1024_S1_S1024_0_0_0_0 : ScatterDims S1x1024 S1 S1024 where
  updateWindowDims := [0]
  insertedWindowDims := [0]
  scatterDimsToOperandDims := [0]
  indexVectorDim := 0
  wf := scatter_S1x1024_S1_S1024_0_0_0_0_wf
def scatter_S8192x2048_S0_S8192x2048_01_n_n_0 : ScatterDims S8192x2048 S0 S8192x2048 where
  updateWindowDims := [0, 1]
  insertedWindowDims := []
  scatterDimsToOperandDims := []
  indexVectorDim := 0
  wf := scatter_S8192x2048_S0_S8192x2048_01_n_n_0_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v9) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The mathematics shared by the two programs, over abstract arrays of extended reals and free of either program's text.

  * A matrix product `[M, K] × [K, N] → [M, N]` into a zero accumulator, read at the output index `(p, q)`, is the plain
    sum `∑ k, lhs (p, k) · rhs (k, q)` over `k : Fin K` (`plainMatmul_apply`).
  * A sum over `Fin (K₁ + K₂)` of products whose factors are a two-piece concatenation along the contracted axis is the
    sum over the first piece plus the sum over the second (`sum_split`): addition on the extended reals is commutative
    and associative, so no finiteness is needed.
  * `linear2`: the function `(n, o) ↦ (∑ k, y (n, k) · wy (o, k)) + (∑ k, z (n, k) · wz (o, k)) + b o` both programs compute.
-/
import Idealize.ShloMosaic.PureOps.Ideal
import Idealize.ShloMosaic.PureOps.Ideal.Laws
import Idealize.ShloMosaic.Lib.ValueIdx

noncomputable section

namespace Cert.Linear2

open Idealize.ShloMosaic Idealize.ShloMosaic.ValueIdx

/-- The fused two-linear map: row `n` of `y` against row `o` of `wy`, row `n` of `z` against row `o` of `wz`, plus `b o`. -/
def linear2 {N A B O : ℕ} (y : (⟨2, ![N, A]⟩ : Shape).Idx → EReal) (z : (⟨2, ![N, B]⟩ : Shape).Idx → EReal)
    (wy : (⟨2, ![O, A]⟩ : Shape).Idx → EReal) (wz : (⟨2, ![O, B]⟩ : Shape).Idx → EReal)
    (b : (⟨1, ![O]⟩ : Shape).Idx → EReal) : (⟨2, ![N, O]⟩ : Shape).Idx → EReal := fun i =>
  (∑ k : Fin A, y (ix2 (i 0) k) * wy (ix2 (i 1) k)) + (∑ k : Fin B, z (ix2 (i 0) k) * wz (ix2 (i 1) k)) + b (ix1 (i 1))

/-- A plain `[M, K] × [K, N]` dot's contraction shape has one axis, -/
theorem plain_contr_rank {M K N : ℕ} (d : DotDims ⟨2, ![M, K]⟩ ⟨2, ![K, N]⟩ ⟨2, ![M, N]⟩)
    (hlc : d.lhsContracting = [1]) : d.contr.rank = 1 := by
  rw [d.rank_contr, hlc]; rfl

/-- of extent `K`. -/
theorem plain_contr_size {M K N : ℕ} (d : DotDims ⟨2, ![M, K]⟩ ⟨2, ![K, N]⟩ ⟨2, ![M, N]⟩)
    (hlc : d.lhsContracting = [1]) : d.contr.size ⟨0, by rw [plain_contr_rank d hlc]; exact Nat.one_pos⟩ = K := by
  have := d.size_contr 0 (by rw [hlc]; exact Nat.one_pos)
  rw [this]
  simp only [hlc]
  rfl

theorem plainMatmul_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : (⟨2, ![M, K]⟩ : Shape).Idx → EReal) (rhs : (⟨2, ![K, N]⟩ : Shape).Idx → EReal) (p : Fin M) (q : Fin N) :
    (∑ k : d.contr.Idx, lhs (d.lhsIdx (ix2 p q) k) * rhs (d.rhsIdx (ix2 p q) k)) = ∑ k : Fin K, lhs (ix2 p k) * rhs (ix2 k q) := by
  obtain ⟨lc, rc, ln, rn, lb, rb, wf⟩ := d
  simp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- A product into the zero accumulator, read at `(p, q)`: the plain sum over the contracted axis. -/
theorem plainMatmul_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (plainMatmul_sum d hlc hrc hln hrn hlb hrb lhs rhs p q)

/-- The reference's arrangement is the same function: with `X = [y | z]` and `W = [wy | wz]ᵀ` concatenated along the
    contracted axis of extent `K = A + B`, `∑ k, X (n, k) · W (k, o)` splits at the seam into the two sums of `linear2`.
    Addition of extended reals is a commutative monoid, so the split needs no finiteness. -/
theorem concat_eq_linear2 {N A B K O : ℕ} (hK : A + B = K)
    (y : (⟨2, ![N, A]⟩ : Shape).Idx → EReal) (z : (⟨2, ![N, B]⟩ : Shape).Idx → EReal)
    (wy : (⟨2, ![O, A]⟩ : Shape).Idx → EReal) (wz : (⟨2, ![O, B]⟩ : Shape).Idx → EReal) (b : (⟨1, ![O]⟩ : Shape).Idx → EReal)
    (X : (⟨2, ![N, K]⟩ : Shape).Idx → EReal) (W : (⟨2, ![K, O]⟩ : Shape).Idx → EReal)
    (hXl : ∀ (n : Fin N) (k : Fin A), X (ix2 n (Fin.cast hK (Fin.castAdd B k))) = y (ix2 n k))
    (hXr : ∀ (n : Fin N) (k : Fin B), X (ix2 n (Fin.cast hK (Fin.natAdd A k))) = z (ix2 n k))
    (hWl : ∀ (o : Fin O) (k : Fin A), W (ix2 (Fin.cast hK (Fin.castAdd B k)) o) = wy (ix2 o k))
    (hWr : ∀ (o : Fin O) (k : Fin B), W (ix2 (Fin.cast hK (Fin.natAdd A k)) o) = wz (ix2 o k))
    (n : Fin N) (o : Fin O) :
    (∑ k : Fin K, X (ix2 n k) * W (ix2 k o)) + b (ix1 o) = linear2 y z wy wz b (ix2 n o) := by
  subst hK
  rw [Fin.sum_univ_add]
  refine congrArg₂ (· + ·) (congrArg₂ (· + ·) (Finset.sum_congr rfl fun k _ => ?_) (Finset.sum_congr rfl fun k _ => ?_)) rfl
  · exact congrArg₂ (· * ·) (hXl n k) (hWl o k)
  · exact congrArg₂ (· * ·) (hXr n k) (hWr o k)

end Cert.Linear2

end
-- ==== Proof.KernelValue.lean ====
/-
  The idealized kernel's result array, as one function of the argument arrays.

  At grid point `t` the body reads rows `512 t … 512 t + 511` of `y` and of `z`, the two transposed weight matrices whole
  (the host transposes `weight_y` and `weight_z` before the call; their change of float format is the identity on the
  extended reals) and the bias as one row, and stores `y_blk · wyᵀ + z_blk · wzᵀ + bias` into rows `512 t …` of the result.
  The sixteen row blocks tile the result, so the result is `Linear2.linear2 y z weight_y weight_z bias` everywhere.
-/
import proofs.«159636_g2000404403435024_pallasbulk_1094_2_alg».proof.Proof.Gen.KernelIdeal.Value
import proofs.«159636_g2000404403435024_pallasbulk_1094_2_alg».proof.Proof.Spec
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.Linear2

variable (m : (ℓ : Loc nD τ sig) → Buf (Elt Ideal) ℓ) (ρ : Dev nD → PrngReg)

theorem hz : (![0, 0] : Fin 2 → Nat) = fun _ => 0 := funext fun a => by fin_cases a <;> rfl

/-- The body's stored value at `(p, q)`: row `p` of the first block against column `q` of the first weight block, the same
    for the second pair, plus the bias row at `q`. -/
theorem payload_apply (x0 x1 : Vec Ideal S512x1024 .f32) (x2 x3 : Vec Ideal S1024x1024 .bf16) (x4 : Vec Ideal S1x1024 .f32)
    (p : Fin 512) (q : Fin 1024) :
    k0_pay1 x0 x1 x2 x3 x4 (ix2 p q)
      = (∑ k : Fin 1024, x0 (ix2 p k) * x2 (ix2 k q)) + (∑ k : Fin 1024, x1 (ix2 p k) * x3 (ix2 k q)) + x4 (ix2 (0 : Fin 1) q) := by
  unfold k0_pay1
  simp only [shapeCast_self]
  rw [addf_apply, addf_apply, plainMatmul_apply _ rfl rfl rfl rfl rfl rfl, plainMatmul_apply _ rfl rfl rfl rfl rfl rfl,
    broadcastTo_1b_ab_apply]
  rfl

/-! ## The arrays as the region finds them -/

/-- The first weight operand as the region finds it: `weight_y` transposed (the cast to bf16 is the identity). -/
theorem V_wy (c : Dev nD) : (V m c main_v1 : S1024x1024.Idx → Ideal .bf16)
    = truncf (F := Ideal) .bf16 (transpose S1024x1024 [1, 0] (m ((c : Thread nD τ).loc main_arg2) : S1024x1024.Idx → Ideal .f32) transposes_S1024x1024_S1024x1024_1_0) bitsLt_bf16_f32 := by
  dsimp only [Gen.V, Gen.hostOps0]
  after_results

/-- At `(k, o)` it holds `weight_y (o, k)`. -/
theorem V_wy_apply (c : Dev nD) (k o : Fin 1024) :
    (V m c main_v1 : S1024x1024.Idx → Ideal .bf16) (ix2 k o) = (m ((c : Thread nD τ).loc main_arg2) : S1024x1024.Idx → Ideal .f32) (ix2 o k) := by
  rw [V_wy]
  exact transpose_ix2_apply _ _ k o

/-- The second weight operand: `weight_z` transposed. -/
theorem V_wz (c : Dev nD) : (V m c main_v3 : S1024x1024.Idx → Ideal .bf16)
    = truncf (F := Ideal) .bf16 (transpose S1024x1024 [1, 0] (m ((c : Thread nD τ).loc main_arg3) : S1024x1024.Idx → Ideal .f32) transposes_S1024x1024_S1024x1024_1_0) bitsLt_bf16_f32 := by
  dsimp only [Gen.V, Gen.hostOps0]
  after_results

/-- At `(k, o)` it holds `weight_z (o, k)`. -/
theorem V_wz_apply (c : Dev nD) (k o : Fin 1024) :
    (V m c main_v3 : S1024x1024.Idx → Ideal .bf16) (ix2 k o) = (m ((c : Thread nD τ).loc main_arg3) : S1024x1024.Idx → Ideal .f32) (ix2 o k) := by
  rw [V_wz]
  exact transpose_ix2_apply _ _ k o

/-- The bias operand: the bias vector as one row. -/
theorem V_bias (c : Dev nD) : (V m c main_v4 : S1x1024.Idx → Ideal .f32)
    = shapeCast S1x1024 (m ((c : Thread nD τ).loc main_arg4) : S1024.Idx → Ideal .f32) shapeCasts_S1024_S1x1024 := by
  dsimp only [Gen.V, Gen.hostOps0]
  after_results
  rfl

/-- At `(0, o)` it holds `bias o`. -/
theorem V_bias_apply (c : Dev nD) (o : Fin 1024) :
    (V m c main_v4 : S1x1024.Idx → Ideal .f32) (ix2 (0 : Fin 1) o) = (m ((c : Thread nD τ).loc main_arg4) : S1024.Idx → Ideal .f32) (ix1 o) := by
  rw [V_bias]
  exact shapeCast_a_1a_apply _ _ 0 o

/-! ## The blocks the body reads at a point -/

theorem lt16 (t : Fin cfg0.N) : t.val < 16 := lt_of_lt_of_eq t.isLt N_0

/-- The printed index maps over the sixteen points: the row-blocked windows (`y`, `z`, the result) are at block row `t`,
    the resident ones (both weights, the bias) at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- `y`'s block at point `t` is rows `512 t …` of `y`. -/
theorem yblk_apply (c : Dev nD) (t : Fin cfg0.N) (p : Fin 512) (k : Fin 1024) (n : Fin 8192) (hn : n.val = 512 * t.val + p.val) :
    (iblk m c 0 t : Vec Ideal S512x1024 .f32) (ix2 p k) = (m ((c : Thread nD τ).loc main_arg0) : S8192x1024.Idx → Ideal .f32) (ix2 n k) := by
  obtain ⟨e0, e1, -⟩ := idx_facts t
  unfold iblk
  rw [View.read_apply]
  show V m c main_arg0 _ = _
  rw [V_main_arg0]
  congr 1
  funext a; apply Fin.ext
  match a with
  | ⟨0, _⟩ => show win0_0.index t (0 : Fin 2) * 512 + 1 * p.val = n.val; omega
  | ⟨1, _⟩ => show win0_0.index t (1 : Fin 2) * 1024 + 1 * k.val = k.val; omega

/-- `z`'s block at point `t` is rows `512 t …` of `z`. -/
theorem zblk_apply (c : Dev nD) (t : Fin cfg0.N) (p : Fin 512) (k : Fin 1024) (n : Fin 8192) (hn : n.val = 512 * t.val + p.val) :
    (iblk m c 1 t : Vec Ideal S512x1024 .f32) (ix2 p k) = (m ((c : Thread nD τ).loc main_arg1) : S8192x1024.Idx → Ideal .f32) (ix2 n k) := by
  obtain ⟨-, -, e0, e1, -⟩ := idx_facts t
  unfold iblk
  rw [View.read_apply]
  show V m c main_arg1 _ = _
  rw [V_main_arg1]
  congr 1
  funext a; apply Fin.ext
  match a with
  | ⟨0, _⟩ => show win0_1.index t (0 : Fin 2) * 512 + 1 * p.val = n.val; omega
  | ⟨1, _⟩ => show win0_1.index t (1 : Fin 2) * 1024 + 1 * k.val = k.val; omega

/-- The first weight block at any point is the whole transposed `weight_y`. -/
theorem wyblk_apply (c : Dev nD) (t : Fin cfg0.N) (k o : Fin 1024) :
    (iblk m c 2 t : Vec Ideal S1024x1024 .bf16) (ix2 k o) = (m ((c : Thread nD τ).loc main_arg2) : S1024x1024.Idx → Ideal .f32) (ix2 o k) := by
  obtain ⟨-, -, -, -, -, -, e0, e1, -⟩ := idx_facts t
  unfold iblk
  rw [View.read_apply]
  show (V m c main_v1 : S1024x1024.Idx → Ideal .bf16) _ = _
  refine Eq.trans (congrArg _ ?_) (V_wy_apply m c k o)
  funext a; apply Fin.ext
  match a with
  | ⟨0, _⟩ => show win0_2.index t (0 : Fin 2) * 1024 + 1 * k.val = k.val; omega
  | ⟨1, _⟩ => show win0_2.index t (1 : Fin 2) * 1024 + 1 * o.val = o.val; omega

/-- The second weight block at any point is the whole transposed `weight_z`. -/
theorem wzblk_apply (c : Dev nD) (t : Fin cfg0.N) (k o : Fin 1024) :
    (iblk m c 3 t : Vec Ideal S1024x1024 .bf16) (ix2 k o) = (m ((c : Thread nD τ).loc main_arg3) : S1024x1024.Idx → Ideal .f32) (ix2 o k) := by
  obtain ⟨-, -, -, -, -, -, -, -, e0, e1, -⟩ := idx_facts t
  unfold iblk
  rw [View.read_apply]
  show (V m c main_v3 : S1024x1024.Idx → Ideal .bf16) _ = _
  refine Eq.trans (congrArg _ ?_) (V_wz_apply m c k o)
  funext a; apply Fin.ext
  match a with
  | ⟨0, _⟩ => show win0_3.index t (0 : Fin 2) * 1024 + 1 * k.val = k.val; omega
  | ⟨1, _⟩ => show win0_3.index t (1 : Fin 2) * 1024 + 1 * o.val = o.val; omega

/-- The bias block at any point is the bias row. -/
theorem bblk_apply (c : Dev nD) (t : Fin cfg0.N) (o : Fin 1024) :
    (iblk m c 4 t : Vec Ideal S1x1024 .f32) (ix2 (0 : Fin 1) o) = (m ((c : Thread nD τ).loc main_arg4) : S1024.Idx → Ideal .f32) (ix1 o) := by
  obtain ⟨-, -, -, -, -, -, -, -, -, -, e0, e1⟩ := idx_facts t
  unfold iblk
  rw [View.read_apply]
  show (V m c main_v4 : S1x1024.Idx → Ideal .f32) _ = _
  refine Eq.trans (congrArg _ ?_) (V_bias_apply m c o)
  funext a; apply Fin.ext
  match a with
  | ⟨0, _⟩ => show win0_4.index t (0 : Fin 2) * 1 + 1 * 0 = 0; omega
  | ⟨1, _⟩ => show win0_4.index t (1 : Fin 2) * 1024 + 1 * o.val = o.val; omega

/-! ## The result array -/

/-- What the result array ends holding: the fused two-linear map of the argument arrays. -/
abbrev result (c : Dev nD) : S8192x1024.Idx → EReal :=
  linear2 (m ((c : Thread nD τ).loc main_arg0) : S8192x1024.Idx → Ideal .f32) (m ((c : Thread nD τ).loc main_arg1) : S8192x1024.Idx → Ideal .f32)
    (m ((c : Thread nD τ).loc main_arg2) : S1024x1024.Idx → Ideal .f32) (m ((c : Thread nD τ).loc main_arg3) : S1024x1024.Idx → Ideal .f32)
    (m ((c : Thread nD τ).loc main_arg4) : S1024.Idx → Ideal .f32)

/-- Point `t` writes back rows `512 t …` of `result`. -/
theorem flushed_eq (c : Dev nD) (t : Fin cfg0.N) :
    (dats m 0 c).flushed 5 t = ((cfg0.win 5).blk t).view.read (Elt Ideal) (result m c) := by
  obtain ⟨-, -, -, -, e4, e5, -⟩ := idx_facts t
  have ht := lt16 t
  rw [flushed5]
  unfold out0_5
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  have hemb : ((cfg0.win 5).blk t).view.emb (ix2 p q) = (ix2 (⟨512 * t.val + p.val, by omega⟩ : Fin 8192) q : S8192x1024.Idx) := by
    funext a; apply Fin.ext
    match a with
    | ⟨0, _⟩ => show win0_5.index t (0 : Fin 2) * 512 + 1 * p.val = 512 * t.val + p.val; omega
    | ⟨1, _⟩ => show win0_5.index t (1 : Fin 2) * 1024 + 1 * q.val = q.val; omega
  show k0_pay1 (iblk m c 0 t) (iblk m c 1 t) (iblk m c 2 t) (iblk m c 3 t) (iblk m c 4 t) (ix2 p q)
    = result m c (((cfg0.win 5).blk t).view.emb (ix2 p q))
  rw [hemb]
  refine (payload_apply (iblk m c 0 t) (iblk m c 1 t) (iblk m c 2 t) (iblk m c 3 t) (iblk m c 4 t) p q).trans ?_
  refine congrArg₂ (· + ·) (congrArg₂ (· + ·) (Finset.sum_congr rfl fun k _ => ?_) (Finset.sum_congr rfl fun k _ => ?_)) ?_
  · rw [yblk_apply m c t p k ⟨512 * t.val + p.val, by omega⟩ rfl, wyblk_apply m c t k q]
  · rw [zblk_apply m c t p k ⟨512 * t.val + p.val, by omega⟩ rfl, wzblk_apply m c t k q]
  · exact bblk_apply m c t q

/-- An index is in point `t`'s block iff each coordinate is in the block's range on its axis. -/
theorem mem_blk (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5).slice (win0_5.rect t)).set ↔ _
  rw [View.set_slice_whole, Rect.mem_set_unit]
  exact Iff.rfl

/-- The sixteen row blocks tile the result: row `r` is in the block of point `r / 512`. So the array ends at `result`. -/
theorem final (c : Dev nD) : (dats m 0 c).arrAt 5 cfg0.N = result m c :=
  (dats m 0 c).arrAt_eq_of_cover 5 (result m c) (fun t _ => flushed_eq m c t) fun i => by
    have hi0 : (i 0).val < 8192 := (i 0).isLt
    have hi1 : (i 1).val < 1024 := (i 1).isLt
    have hN : cfg0.N = 16 := N_0
    refine ⟨⟨(i 0).val / 512, by rw [hN]; omega⟩, flush0_5 _, ?_⟩
    obtain ⟨-, -, -, -, e4, e5, -⟩ := idx_facts ⟨(i 0).val / 512, by rw [hN]; omega⟩
    rw [mem_blk]
    intro a
    match a with
    | ⟨0, _⟩ =>
      show win0_5.index _ (0 : Fin 2) * 512 ≤ (i 0).val ∧ (i 0).val < win0_5.index _ (0 : Fin 2) * 512 + 512
      rw [e4]; show (i 0).val / 512 * 512 ≤ (i 0).val ∧ (i 0).val < (i 0).val / 512 * 512 + 512; omega
    | ⟨1, _⟩ =>
      show win0_5.index _ (1 : Fin 2) * 1024 ≤ (i 1).val ∧ (i 1).val < win0_5.index _ (1 : Fin 2) * 1024 + 1024
      rw [e5]; omega

/-- The run, read: the result array at `result`, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Hand

end
-- ==== Proof.LibScatterSet.lean ====
/-
  A general fact about the host program's `stablehlo.scatter` whose body returns the update (`x.at[…].set(u)`): when
  every update index lands inside the operand, at `g j` for an injective `g`, the result read at `g j` is the update
  at `j`, and an operand index that no update lands on keeps the operand's value. The scatter is a left fold of
  overwrites over the update indices in row-major order; injectivity makes the order immaterial.
-/
import Idealize.ShloMosaic.PureOps.ShapeOps
import Idealize.ShloMosaic.Lib.ValueIdx

namespace Idealize.ShloMosaic.ScatterSet

/-- A fold of overwrites `r ↦ r[G n := V n]` leaves a position no listed `n` lands on as it was. -/
theorem foldl_set_miss {N : ℕ} {ι α : Type} (dec : ∀ a b : ι, Decidable (a = b)) (G : Fin N → ι) (V : Fin N → α) :
    ∀ (l : List (Fin N)) (r : ι → α) (i : ι), (∀ n ∈ l, G n ≠ i) →
      (l.foldl (fun r n => fun i' => @ite _ (i' = G n) (dec i' (G n)) (V n) (r i')) r) i = r i
  | [], _, _, _ => rfl
  | a :: l, r, i, h => by
    rw [List.foldl_cons, foldl_set_miss dec G V l _ i (fun n hn => h n (List.mem_cons_of_mem _ hn))]
    exact if_neg (fun e => h a (List.mem_cons.2 (Or.inl rfl)) e.symm)

/-- Over a list without repeats and an injective landing map, the position `G n` of a listed `n` ends at `V n`. -/
theorem foldl_set_hit {N : ℕ} {ι α : Type} (dec : ∀ a b : ι, Decidable (a = b)) (G : Fin N → ι) (hG : Function.Injective G)
    (V : Fin N → α) :
    ∀ (l : List (Fin N)) (r : ι → α) (n : Fin N), l.Nodup → n ∈ l →
      (l.foldl (fun r n => fun i' => @ite _ (i' = G n) (dec i' (G n)) (V n) (r i')) r) (G n) = V n
  | [], _, _, _, h => absurd h (List.not_mem_nil)
  | a :: l, r, n, hnd, hn => by
    rw [List.foldl_cons]
    rcases List.mem_cons.1 hn with rfl | hn'
    · rw [foldl_set_miss dec G V l _ (G n) (fun k hk e => (List.nodup_cons.1 hnd).1 (hG e ▸ hk))]
      exact if_pos rfl
    · exact foldl_set_hit dec G hG V l _ n (List.nodup_cons.1 hnd).2 hn'

variable {α : Type} {s si u : Shape} {w : ℕ}

/-- A set-scatter whose update index `j` lands at `g j`, `g` injective, holds update `j` at `g j`. -/
theorem scatter_set_apply (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  simp only [hg]
  have h := foldl_set_hit (fun a b => inferInstance) (fun n => g (u.rowMajor.symm n))
    (fun a b e => u.rowMajor.symm.injective (hinj e)) (fun n => upd (u.rowMajor.symm n))
    (List.finRange u.numel) x (u.rowMajor j) (List.nodup_finRange _) (List.mem_finRange _)
  rw [Equiv.symm_apply_apply] at h
  exact h

open Idealize.ShloMosaic.ValueIdx in
/-- A set-scatter of a whole `[A, B]` array onto an `[A, B]` operand — no scatter axes, the update window both axes, one
    (empty) start index — is the update. -/
theorem scatter_whole2 {A B : ℕ} (d : ScatterDims ⟨2, ![A, B]⟩ ⟨1, ![0]⟩ ⟨2, ![A, B]⟩)
    (huw : d.updateWindowDims = [0, 1]) (hiw : d.insertedWindowDims = []) (hsd : d.scatterDimsToOperandDims = [])
    (x : (⟨2, ![A, B]⟩ : Shape).Idx → α) (idx : IVec ⟨1, ![0]⟩ w) (upd : (⟨2, ![A, B]⟩ : Shape).Idx → α) :
    Host.scatter d (fun _ b => b) x idx upd = upd := by
  obtain ⟨uw, iw, sd, iv, wf⟩ := d
  simp only at huw hiw hsd
  subst huw hiw hsd
  funext i
  refine scatter_set_apply _ x idx upd id (fun j => ?_) Function.injective_id i
  have hs : ∀ a, ScatterDims.start (⟨[0, 1], [], [], iv, wf⟩ : ScatterDims ⟨2, ![A, B]⟩ ⟨1, ![0]⟩ ⟨2, ![A, B]⟩) j idx a = 0 :=
    fun a => dif_neg (List.not_mem_nil)
  have hw : ∀ a, ScatterDims.window (⟨[0, 1], [], [], iv, wf⟩ : ScatterDims ⟨2, ![A, B]⟩ ⟨1, ![0]⟩ ⟨2, ![A, B]⟩) j a = (j a).val := by
    intro a
    match a with
    | ⟨0, _⟩ => rfl
    | ⟨1, _⟩ => rfl
  unfold ScatterDims.resultIdx?
  rw [dif_pos (fun a => by rw [hs, hw]; have := (j a).isLt; constructor <;> omega)]
  refine congrArg some (funext fun a => Fin.ext ?_)
  simp only [hs, hw, id, Int.zero_add, Int.toNat_natCast]

open Idealize.ShloMosaic.ValueIdx in
/-- A set-scatter of a `[B]` vector into a `[1, B]` operand along the inserted leading axis, at the one start index `0`:
    the operand's row is the vector. -/
theorem scatter_row {B : ℕ} (d : ScatterDims ⟨2, ![1, B]⟩ ⟨1, ![1]⟩ ⟨1, ![B]⟩)
    (huw : d.updateWindowDims = [0]) (hiw : d.insertedWindowDims = [0]) (hsd : d.scatterDimsToOperandDims = [0])
    (hiv : d.indexVectorDim = 0)
    (x : (⟨2, ![1, B]⟩ : Shape).Idx → α) (idx : IVec ⟨1, ![1]⟩ w) (hidx : ∀ k, (idx k).toInt = 0)
    (upd : (⟨1, ![B]⟩ : Shape).Idx → α) (o : Fin B) :
    Host.scatter d (fun _ b => b) x idx upd (ix2 (0 : Fin 1) o) = upd (ix1 o) := by
  obtain ⟨uw, iw, sd, iv, wf⟩ := d
  simp only at huw hiw hsd hiv
  subst huw hiw hsd hiv
  refine scatter_set_apply _ x idx upd (fun j => @ix2 1 B 0 (j 0)) (fun j => ?_) (fun j j' e => ?_) (ix1 o)
  · have hs : ∀ a, ScatterDims.start (⟨[0], [0], [0], 0, wf⟩ : ScatterDims ⟨2, ![1, B]⟩ ⟨1, ![1]⟩ ⟨1, ![B]⟩) j idx a = 0 := by
      intro a
      match a with
      | ⟨0, _⟩ => exact (dif_pos (List.mem_singleton.2 rfl)).trans (hidx _)
      | ⟨1, _⟩ => exact dif_neg (fun hm => absurd (congrArg Fin.val (List.mem_singleton.1 hm)) Nat.one_ne_zero)
    have hw : ∀ a, ScatterDims.window (⟨[0], [0], [0], 0, wf⟩ : ScatterDims ⟨2, ![1, B]⟩ ⟨1, ![1]⟩ ⟨1, ![B]⟩) j a
        = (@ix2 1 B 0 (j 0) a).val := by
      intro a
      match a with
      | ⟨0, _⟩ => rfl
      | ⟨1, _⟩ => rfl
    unfold ScatterDims.resultIdx?
    rw [dif_pos (fun a => by rw [hs, hw]; have := (@ix2 1 B 0 (j 0) a).isLt; constructor <;> omega)]
    refine congrArg some (funext fun a => Fin.ext ?_)
    simp only [hs, hw, Int.zero_add, Int.toNat_natCast]
  · funext a
    match a with
    | ⟨0, _⟩ => exact congrFun e 1

end Idealize.ShloMosaic.ScatterSet
-- ==== Proof.ReferenceValue.lean ====
/-
  The idealized reference's result array, as one function of the argument arrays.

  The reference concatenates `[y | z]` and `[weight_y | weight_z]` along the feature axis, transposes the weights, writes
  each of the three operands over a zero array of the same extent (a scatter whose update window is the whole operand, so
  the operand IS the update; the bias lands in the one row of a `[1, 1024]` zero array), and runs one matrix product per
  block of 256 rows: `x_blk · w + bias`. The 32 row blocks tile the result. A sum over the 2048 concatenated features is
  the sum over `y`'s 1024 plus the sum over `z`'s 1024, so the result is `Linear2.linear2 y z weight_y weight_z bias`.
-/
import proofs.«159636_g2000404403435024_pallasbulk_1094_2_alg».proof.Proof.Gen.ReferenceIdeal.Value
import proofs.«159636_g2000404403435024_pallasbulk_1094_2_alg».proof.Proof.Spec
import proofs.«159636_g2000404403435024_pallasbulk_1094_2_alg».proof.Proof.LibScatterSet
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Value Cert.Linear2 Idealize.ShloMosaic.ScatterSet

variable (m : (ℓ : Loc nD τ sig) → Buf (Elt Ideal) ℓ) (ρ : Dev nD → PrngReg)

theorem hz : (![0, 0] : Fin 2 → Nat) = fun _ => 0 := funext fun a => by fin_cases a <;> rfl

/-- The concatenated feature axis: 1024 features of `y` then 1024 of `z`. -/
theorem h2048 : 1024 + 1024 = 2048 := rfl

/-- The body's stored value at `(p, q)`: row `p` of the row block against column `q` of the weights, plus the bias row at `q`. -/
theorem payload_apply (x0 : Vec Ideal S256x2048 .f32) (x1 : Vec Ideal S2048x1024 .f32) (x2 : Vec Ideal S1x1024 .f32)
    (p : Fin 256) (q : Fin 1024) :
    k0_pay1 x0 x1 x2 (ix2 p q) = (∑ k : Fin 2048, x0 (ix2 p k) * x1 (ix2 k q)) + x2 (ix2 (0 : Fin 1) q) := by
  unfold k0_pay1
  simp only [shapeCast_self]
  rw [addf_apply, plainMatmul_apply _ rfl rfl rfl rfl rfl rfl, broadcastTo_1b_ab_apply]

/-- The same with the three loaded blocks named by what they hold: rows of an array `X`, an array `W`, a vector `bb`. -/
theorem point_value (x0 : Vec Ideal S256x2048 .f32) (x1 : Vec Ideal S2048x1024 .f32) (x2 : Vec Ideal S1x1024 .f32)
    (X : S8192x2048.Idx → EReal) (W : S2048x1024.Idx → EReal) (bb : S1024.Idx → EReal)
    (p : Fin 256) (q : Fin 1024) (n : Fin 8192)
    (h0 : ∀ k : Fin 2048, x0 (ix2 p k) = X (ix2 n k)) (h1 : ∀ k : Fin 2048, x1 (ix2 k q) = W (ix2 k q))
    (h2 : x2 (ix2 (0 : Fin 1) q) = bb (ix1 q)) :
    k0_pay1 x0 x1 x2 (ix2 p q) = (∑ k : Fin 2048, X (ix2 n k) * W (ix2 k q)) + bb (ix1 q) := by
  rw [payload_apply, h2]
  exact congrArg (· + bb (ix1 q)) (Finset.sum_congr rfl fun k _ => by rw [h0 k, h1 k])

/-! ## The arrays as the region finds them -/

/-- The left operand: `[y | z]`. -/
theorem V_x (c : Dev nD) : (V m c main_v9 : S8192x2048.Idx → Ideal .f32)
    = concatenate S8192x2048 1 [⟨S8192x1024, (m ((c : Thread nD τ).loc main_arg0) : S8192x1024.Idx → Ideal .f32)⟩,
        ⟨S8192x1024, (m ((c : Thread nD τ).loc main_arg1) : S8192x1024.Idx → Ideal .f32)⟩] concatenates_S8192x1024_S8192x1024_S8192x2048_d1 := by
  dsimp only [Gen.V, Gen.hostOps0]
  after_results
  exact scatter_whole2 _ rfl rfl rfl _ _ _

/-- `[y | z]` at a feature of `y`. -/
theorem V_x_left (c : Dev nD) (n : Fin 8192) (k : Fin 1024) :
    (V m c main_v9 : S8192x2048.Idx → Ideal .f32) (ix2 n (Fin.cast h2048 (Fin.castAdd 1024 k)))
      = (m ((c : Thread nD τ).loc main_arg0) : S8192x1024.Idx → Ideal .f32) (ix2 n k) := by
  rw [V_x]
  refine concatenate_pair_apply_left (t := S8192x2048) (s₁ := S8192x1024) (s₂ := S8192x1024) (1 : Fin 2) _ _ _ (ix2 n (Fin.cast h2048 (Fin.castAdd 1024 k))) rfl (ix2 n k) ?_
  intro b
  match b with
  | ⟨0, _⟩ => rfl
  | ⟨1, _⟩ => rfl

/-- `[y | z]` at a feature of `z`. -/
theorem V_x_right (c : Dev nD) (n : Fin 8192) (k : Fin 1024) :
    (V m c main_v9 : S8192x2048.Idx → Ideal .f32) (ix2 n (Fin.cast h2048 (Fin.natAdd 1024 k)))
      = (m ((c : Thread nD τ).loc main_arg1) : S8192x1024.Idx → Ideal .f32) (ix2 n k) := by
  rw [V_x]
  refine concatenate_pair_apply_right (t := S8192x2048) (s₁ := S8192x1024) (s₂ := S8192x1024) (1 : Fin 2) _ _ _ (ix2 n (Fin.cast h2048 (Fin.natAdd 1024 k))) rfl rfl (ix2 n k) ?_ ?_
  · intro b
    match b with
    | ⟨0, _⟩ => exact fun _ => rfl
    | ⟨1, _⟩ => exact fun h => absurd rfl h
  · show k.val + 1024 = 1024 + k.val
    omega

/-- The right operand: `[weight_y | weight_z]` transposed. -/
theorem V_w (c : Dev nD) : (V m c main_v4 : S2048x1024.Idx → Ideal .f32)
    = transpose S2048x1024 [1, 0] (concatenate S1024x2048 1 [⟨S1024x1024, (m ((c : Thread nD τ).loc main_arg2) : S1024x1024.Idx → Ideal .f32)⟩,
        ⟨S1024x1024, (m ((c : Thread nD τ).loc main_arg3) : S1024x1024.Idx → Ideal .f32)⟩] concatenates_S1024x1024_S1024x1024_S1024x2048_d1)
        transposes_S1024x2048_S2048x1024_1_0 := by
  dsimp only [Gen.V, Gen.hostOps0]
  after_results
  exact scatter_whole2 _ rfl rfl rfl _ _ _

/-- At a feature of `y` and output `o` it holds `weight_y (o, k)`. -/
theorem V_w_left (c : Dev nD) (o : Fin 1024) (k : Fin 1024) :
    (V m c main_v4 : S2048x1024.Idx → Ideal .f32) (ix2 (Fin.cast h2048 (Fin.castAdd 1024 k)) o)
      = (m ((c : Thread nD τ).loc main_arg2) : S1024x1024.Idx → Ideal .f32) (ix2 o k) := by
  rw [V_w]
  refine (transpose_ix2_apply _ _ (Fin.cast h2048 (Fin.castAdd 1024 k)) o).trans ?_
  refine concatenate_pair_apply_left (t := S1024x2048) (s₁ := S1024x1024) (s₂ := S1024x1024) (1 : Fin 2) _ _ _ (ix2 o (Fin.cast h2048 (Fin.castAdd 1024 k))) rfl (ix2 o k) ?_
  intro b
  match b with
  | ⟨0, _⟩ => rfl
  | ⟨1, _⟩ => rfl

/-- At a feature of `z` and output `o` it holds `weight_z (o, k)`. -/
theorem V_w_right (c : Dev nD) (o : Fin 1024) (k : Fin 1024) :
    (V m c main_v4 : S2048x1024.Idx → Ideal .f32) (ix2 (Fin.cast h2048 (Fin.natAdd 1024 k)) o)
      = (m ((c : Thread nD τ).loc main_arg3) : S1024x1024.Idx → Ideal .f32) (ix2 o k) := by
  rw [V_w]
  refine (transpose_ix2_apply _ _ (Fin.cast h2048 (Fin.natAdd 1024 k)) o).trans ?_
  refine concatenate_pair_apply_right (t := S1024x2048) (s₁ := S1024x1024) (s₂ := S1024x1024) (1 : Fin 2) _ _ _ (ix2 o (Fin.cast h2048 (Fin.natAdd 1024 k))) rfl rfl (ix2 o k) ?_ ?_
  · intro b
    match b with
    | ⟨0, _⟩ => exact fun _ => rfl
    | ⟨1, _⟩ => exact fun h => absurd rfl h
  · show k.val + 1024 = 1024 + k.val
    omega

/-- The bias operand: the bias vector written into the one row of a zero `[1, 1024]` array. -/
theorem V_b (c : Dev nD) : (V m c main_v7 : S1x1024.Idx → Ideal .f32)
    = Host.scatter scatter_S1x1024_S1_S1024_0_0_0_0 (fun _ b => b)
        (broadcastInDim S1x1024 ![] bcast_S_S1x1024 (constant (F := Ideal) S_ .f32 0x00000000#32))
        (broadcastInDim S1 ![] bcast_S_S1 (constantI S_ 32 0#32))
        (m ((c : Thread nD τ).loc main_arg4) : S1024.Idx → Ideal .f32) := by
  dsimp only [Gen.V, Gen.hostOps0]
  after_results

/-- At `(0, o)` it holds `bias o`. -/
theorem V_b_apply (c : Dev nD) (o : Fin 1024) :
    (V m c main_v7 : S1x1024.Idx → Ideal .f32) (ix2 (0 : Fin 1) o) = (m ((c : Thread nD τ).loc main_arg4) : S1024.Idx → Ideal .f32) (ix1 o) := by
  rw [V_b]
  exact scatter_row _ rfl rfl rfl rfl _ _ (fun _ => rfl) _ o

/-! ## The blocks the body reads at a point -/

theorem lt32 (t : Fin cfg0.N) : t.val < 32 := lt_of_lt_of_eq t.isLt N_0

/-- The printed index maps over the 32 points: the row-blocked windows (`[y | z]`, the result) are at block row `t`, the
    resident ones (the weights, the bias) at block `(0, 0)`. -/
theorem idx_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Window 0's block at point `t`, read off any array `A`, is rows `256 t …` of `A`. -/
theorem blk0_read (t : Fin cfg0.N) (A : S8192x2048.Idx → Ideal .f32) (p : Fin 256) (k : Fin 2048) (n : Fin 8192)
    (hn : n.val = 256 * t.val + p.val) :
    (((cfg0.win 0).blk t).view.read (Elt Ideal) A : Vec Ideal S256x2048 .f32) (ix2 p k) = A (ix2 n k) := by
  obtain ⟨e0, e1, -⟩ := idx_facts t
  rw [View.read_apply]
  show A _ = A _
  congr 1
  funext a; apply Fin.ext
  match a with
  | ⟨0, _⟩ => show win0_0.index t (0 : Fin 2) * 256 + 1 * p.val = n.val; omega
  | ⟨1, _⟩ => show win0_0.index t (1 : Fin 2) * 2048 + 1 * k.val = k.val; omega

/-- Window 1's block at any point, read off any array `A`, is `A`. -/
theorem blk1_read (t : Fin cfg0.N) (A : S2048x1024.Idx → Ideal .f32) (k : Fin 2048) (q : Fin 1024) :
    (((cfg0.win 1).blk t).view.read (Elt Ideal) A : Vec Ideal S2048x1024 .f32) (ix2 k q) = A (ix2 k q) := by
  obtain ⟨-, -, -, -, e0, e1, -⟩ := idx_facts t
  rw [View.read_apply]
  show A _ = A _
  congr 1
  funext a; apply Fin.ext
  match a with
  | ⟨0, _⟩ => show win0_1.index t (0 : Fin 2) * 2048 + 1 * k.val = k.val; omega
  | ⟨1, _⟩ => show win0_1.index t (1 : Fin 2) * 1024 + 1 * q.val = q.val; omega

/-- Window 2's block at any point, read off any one-row array `A`, is `A`. -/
theorem blk2_read (t : Fin cfg0.N) (A : S1x1024.Idx → Ideal .f32) (o : Fin 1024) :
    (((cfg0.win 2).blk t).view.read (Elt Ideal) A : Vec Ideal S1x1024 .f32) (ix2 (0 : Fin 1) o) = A (ix2 (0 : Fin 1) o) := by
  obtain ⟨-, -, -, -, -, -, e0, e1⟩ := idx_facts t
  rw [View.read_apply]
  show A _ = A _
  congr 1
  funext a; apply Fin.ext
  match a with
  | ⟨0, _⟩ => show win0_2.index t (0 : Fin 2) * 1 + 1 * 0 = 0; omega
  | ⟨1, _⟩ => show win0_2.index t (1 : Fin 2) * 1024 + 1 * o.val = o.val; omega

/-- The left operand's block at point `t` is rows `256 t …` of `[y | z]`. -/
theorem xblk_apply (c : Dev nD) (t : Fin cfg0.N) (p : Fin 256) (k : Fin 2048) (n : Fin 8192) (hn : n.val = 256 * t.val + p.val) :
    (iblk m c 0 t : Vec Ideal S256x2048 .f32) (ix2 p k) = (V m c main_v9 : S8192x2048.Idx → Ideal .f32) (ix2 n k) :=
  blk0_read t (V m c main_v9 : S8192x2048.Idx → Ideal .f32) p k n hn

/-- The weight block at any point is the whole right operand. -/
theorem wblk_apply (c : Dev nD) (t : Fin cfg0.N) (k : Fin 2048) (q : Fin 1024) :
    (iblk m c 1 t : Vec Ideal S2048x1024 .f32) (ix2 k q) = (V m c main_v4 : S2048x1024.Idx → Ideal .f32) (ix2 k q) :=
  blk1_read t (V m c main_v4 : S2048x1024.Idx → Ideal .f32) k q

/-- The bias block at any point is the bias row. -/
theorem bblk_apply (c : Dev nD) (t : Fin cfg0.N) (o : Fin 1024) :
    (iblk m c 2 t : Vec Ideal S1x1024 .f32) (ix2 (0 : Fin 1) o) = (m ((c : Thread nD τ).loc main_arg4) : S1024.Idx → Ideal .f32) (ix1 o) :=
  (blk2_read t (V m c main_v7 : S1x1024.Idx → Ideal .f32) o).trans (V_b_apply m c o)

/-! ## The result array -/

/-- What the result array ends holding: the fused two-linear map of the argument arrays. -/
abbrev result (c : Dev nD) : S8192x1024.Idx → EReal :=
  linear2 (m ((c : Thread nD τ).loc main_arg0) : S8192x1024.Idx → Ideal .f32) (m ((c : Thread nD τ).loc main_arg1) : S8192x1024.Idx → Ideal .f32)
    (m ((c : Thread nD τ).loc main_arg2) : S1024x1024.Idx → Ideal .f32) (m ((c : Thread nD τ).loc main_arg3) : S1024x1024.Idx → Ideal .f32)
    (m ((c : Thread nD τ).loc main_arg4) : S1024.Idx → Ideal .f32)

/-- Point `t` writes back rows `256 t …` of `result`: the sum over the 2048 concatenated features splits at the seam. -/
theorem flushed_eq (c : Dev nD) (t : Fin cfg0.N) :
    (dats m 0 c).flushed 3 t = ((cfg0.win 3).blk t).view.read (Elt Ideal) (result m c) := by
  obtain ⟨-, -, e2, e3, -⟩ := idx_facts t
  have ht := lt32 t
  rw [flushed3]
  unfold out0_3
  rw [View.canon_unit_zero hz]
  simp only [View.ld_unit_zero (S := S256x2048) hz, View.ld_unit_zero (S := S2048x1024) hz, View.ld_unit_zero (S := S1x1024) hz]
  funext j
  obtain ⟨p, q, rfl⟩ : ∃ (p : Fin 256) (q : Fin 1024), j = ix2 p q := ⟨j 0, j 1, eq_ix2 j⟩
  have hemb : ((cfg0.win 3).blk t).view.emb (ix2 p q) = (ix2 (⟨256 * t.val + p.val, by omega⟩ : Fin 8192) q : S8192x1024.Idx) := by
    funext a; apply Fin.ext
    match a with
    | ⟨0, _⟩ => show win0_3.index t (0 : Fin 2) * 256 + 1 * p.val = 256 * t.val + p.val; omega
    | ⟨1, _⟩ => show win0_3.index t (1 : Fin 2) * 1024 + 1 * q.val = q.val; omega
  show k0_pay1 (iblk m c 0 t) (iblk m c 1 t) (iblk m c 2 t) (ix2 p q)
    = result m c (((cfg0.win 3).blk t).view.emb (ix2 p q))
  rw [hemb]
  refine (point_value (iblk m c 0 t) (iblk m c 1 t) (iblk m c 2 t)
    (V m c main_v9 : S8192x2048.Idx → Ideal .f32) (V m c main_v4 : S2048x1024.Idx → Ideal .f32)
    (m ((c : Thread nD τ).loc main_arg4) : S1024.Idx → Ideal .f32) p q ⟨256 * t.val + p.val, by omega⟩
    (fun k => xblk_apply m c t p k ⟨256 * t.val + p.val, by omega⟩ rfl) (fun k => wblk_apply m c t k q)
    (bblk_apply m c t q)).trans ?_
  exact concat_eq_linear2 h2048 _ _ _ _ _
    (V m c main_v9 : S8192x2048.Idx → Ideal .f32) (V m c main_v4 : S2048x1024.Idx → Ideal .f32)
    (V_x_left m c) (V_x_right m c) (V_w_left m c) (V_w_right m c) _ q

/-- An index is in point `t`'s block iff each coordinate is in the block's range on its axis. -/
theorem mem_blk (t : Fin cfg0.N) (i : S8192x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v10).slice (win0_3.rect t)).set ↔ _
  rw [View.set_slice_whole, Rect.mem_set_unit]
  exact Iff.rfl

/-- The 32 row blocks tile the result: row `r` is in the block of point `r / 256`. So the array ends at `result`. -/
theorem final (c : Dev nD) : (dats m 0 c).arrAt 3 cfg0.N = result m c :=
  (dats m 0 c).arrAt_eq_of_cover 3 (result m c) (fun t _ => flushed_eq m c t) fun i => by
    have hi0 : (i 0).val < 8192 := (i 0).isLt
    have hi1 : (i 1).val < 1024 := (i 1).isLt
    have hN : cfg0.N = 32 := N_0
    refine ⟨⟨(i 0).val / 256, by rw [hN]; omega⟩, flush0_3 _, ?_⟩
    obtain ⟨-, -, e2, e3, -⟩ := idx_facts ⟨(i 0).val / 256, by rw [hN]; omega⟩
    rw [mem_blk]
    intro a
    match a with
    | ⟨0, _⟩ =>
      show win0_3.index _ (0 : Fin 2) * 256 ≤ (i 0).val ∧ (i 0).val < win0_3.index _ (0 : Fin 2) * 256 + 256
      rw [e2]; show (i 0).val / 256 * 256 ≤ (i 0).val ∧ (i 0).val < (i 0).val / 256 * 256 + 256; omega
    | ⟨1, _⟩ =>
      show win0_3.index _ (1 : Fin 2) * 1024 ≤ (i 1).val ∧ (i 1).val < win0_3.index _ (1 : Fin 2) * 1024 + 1024
      rw [e3]; omega

/-- The run, read: the result array at `result`, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.ReferenceIdeal.Hand

end
-- ==== Proof.lean ====
/-
  The fused two-linear kernel `out = y · weight_yᵀ + z · weight_zᵀ + bias` against its reference, over the extended reals.

  The kernel multiplies each block of 512 rows of `y` and of `z` by the transposed weights (cast to bf16, which is the
  identity on the extended reals) in two matrix products, adds them, and adds the bias row. The reference concatenates
  `[y | z]` and `[weight_y | weight_z]` along the 2048 features and runs ONE matrix product per block of 256 rows, plus the
  bias row. Entry `(n, o)` of either result is
      (∑ k < 1024, y (n, k) · weight_y (o, k)) + (∑ k < 1024, z (n, k) · weight_z (o, k)) + bias o :
  a sum over the 2048 concatenated features is the sum over the first 1024 plus the sum over the last 1024, which holds
  in any commutative monoid, so the precondition (finite inputs) is not used.

  Each program's frame is its generated frame; the ideal pass rewrote nothing, so `preserves` is `True`.
-/
import proofs.«159636_g2000404403435024_pallasbulk_1094_2_alg».proof.Defs
import proofs.«159636_g2000404403435024_pallasbulk_1094_2_alg».proof.Proof.Gen.Kernel
import proofs.«159636_g2000404403435024_pallasbulk_1094_2_alg».proof.Proof.Gen.Kernel.Skeleton
import proofs.«159636_g2000404403435024_pallasbulk_1094_2_alg».proof.Proof.Gen.Kernel.Launch
import proofs.«159636_g2000404403435024_pallasbulk_1094_2_alg».proof.Proof.Gen.Kernel.Points
import proofs.«159636_g2000404403435024_pallasbulk_1094_2_alg».proof.Proof.Gen.Kernel.Frame
import proofs.«159636_g2000404403435024_pallasbulk_1094_2_alg».proof.Proof.Gen.KernelIdeal
import proofs.«159636_g2000404403435024_pallasbulk_1094_2_alg».proof.Proof.Gen.KernelIdeal.Skeleton
import proofs.«159636_g2000404403435024_pallasbulk_1094_2_alg».proof.Proof.Gen.KernelIdeal.Launch
import proofs.«159636_g2000404403435024_pallasbulk_1094_2_alg».proof.Proof.Gen.KernelIdeal.Points
import proofs.«159636_g2000404403435024_pallasbulk_1094_2_alg».proof.Proof.Gen.KernelIdeal.Frame
import proofs.«159636_g2000404403435024_pallasbulk_1094_2_alg».proof.Proof.Gen.ReferenceIdeal
import proofs.«159636_g2000404403435024_pallasbulk_1094_2_alg».proof.Proof.Gen.ReferenceIdeal.Skeleton
import proofs.«159636_g2000404403435024_pallasbulk_1094_2_alg».proof.Proof.Gen.ReferenceIdeal.Launch
import proofs.«159636_g2000404403435024_pallasbulk_1094_2_alg».proof.Proof.Gen.ReferenceIdeal.Points
import proofs.«159636_g2000404403435024_pallasbulk_1094_2_alg».proof.Proof.Gen.ReferenceIdeal.Frame
import proofs.«159636_g2000404403435024_pallasbulk_1094_2_alg».proof.Proof.Gen.Pre_finite_inputs
import proofs.«159636_g2000404403435024_pallasbulk_1094_2_alg».proof.Proof.Gen.KernelIdeal.Value
import proofs.«159636_g2000404403435024_pallasbulk_1094_2_alg».proof.Proof.Gen.ReferenceIdeal.Value
import proofs.«159636_g2000404403435024_pallasbulk_1094_2_alg».proof.Proof.KernelValue
import proofs.«159636_g2000404403435024_pallasbulk_1094_2_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel, -/
theorem frame_kernelIdeal : Cert.frame_KernelIdeal := fun m ρ _ => Cert.KernelIdeal.Gen.frame m ρ

/-- and the idealized reference. -/
theorem frame_referenceIdeal : Cert.frame_ReferenceIdeal := fun m ρ _ => Cert.ReferenceIdeal.Gen.frame m ρ

/-- From memories that agree on the five arguments both programs end with the result array at the fused two-linear map of
    those arguments: the same function, so the same array. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  show Cert.ReferenceIdeal.Hand.result m' c = Cert.KernelIdeal.Hand.result m c
  dsimp only [Cert.ReferenceIdeal.Hand.result, Cert.KernelIdeal.Hand.result]
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
